-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2048x8192 : Shape := ⟨2, ![2048, 8192]⟩
abbrev S2048 : Shape := ⟨1, ![2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4096x8192 .f32) (main_arg1 : FVec F S2048x8192 .f32) (main_arg2 : FVec F S2048 .f32) (main_arg3 : FVec F S2048x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4096x8192 : Shape := ⟨2, ![4096, 8192]⟩
abbrev S2048x8192 : Shape := ⟨2, ![2048, 8192]⟩
abbrev S2048 : Shape := ⟨1, ![2048]⟩
abbrev S1x2048 : Shape := ⟨2, ![1, 2048]⟩
abbrev S4096x2048 : Shape := ⟨2, ![4096, 2048]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S2048, .f32⟩
  | .hbm, ⟨3, _⟩ => ⟨S2048x8192, .f32⟩
  | .hbm, ⟨4, _⟩ => ⟨S1x2048, .f32⟩
  | .hbm, ⟨5, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x8192.size a
  hwx0_1 : ∀ i : grid0.Coords, EltTy.bits .f32 = 32 ∨ (Rect.block (s := S2048x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x8192.size a
  hwx0_2 : ∀ i : grid0.Coords, EltTy.bits .f32 = 32 ∨ (Rect.block (s := S2048x8192) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x2048.size a
  hwx0_4 : ∀ i : grid0.Coords, EltTy.bits .f32 = 32 ∨ (Rect.block (s := S4096x2048) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2048x8192 : Shape := ⟨2, ![2048, 8192]⟩
abbrev S2048 : Shape := ⟨1, ![2048]⟩
abbrev S_ : Shape := ⟨0, ![]⟩
abbrev S4096x2048 : Shape := ⟨2, ![4096, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S2048, .f32⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .i1⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call1_cst : Ref sig .tc := ⟨.hbm, 23, rfl⟩
abbrev main_call1_v0 : Ref sig .tc := ⟨.hbm, 24, rfl⟩
abbrev main_v6 : Ref sig .tc := ⟨.hbm, 25, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x8192_S2048x8192_S4096x2048_1_1_0_0_n_n_wf : DotDims.WF S4096x8192 S2048x8192 S4096x2048 [1] [1] [0] [0] [] []

variable [Facts₀]

def dot_S4096x8192_S2048x8192_S4096x2048_1_1_0_0_n_n : DotDims S4096x8192 S2048x8192 S4096x2048 where
  lhsContracting := [1]
  rhsContracting := [1]
  lhsNonContracting := [0]
  rhsNonContracting := [0]
  lhsBatch := []
  rhsBatch := []
  wf := dot_S4096x8192_S2048x8192_S4096x2048_1_1_0_0_n_n_wf

class Facts : Prop extends Facts₀ where

variable [Facts]
-- ==== Proof.Pieces.lean ====
/-
  What one grid point leaves behind, as arithmetic on the blocks it was handed.

  A point holds a [1024, 1024] block of g, [512, 1024] blocks of W and of the mask, a [1, 512] block of the
  bias and the [1024, 512] accumulator.  Writing  step acc = acc + g_blk · (softplus W_blk · mask_blk)ᵀ  for the
  update of the accumulator:
    * at the first step of a contraction the accumulator is zeroed and then updated:  step 0;
    * at a middle step it is updated from what the step before left:  step acc;
    * at the last step it is updated likewise, and the output block is  max (step acc + bias) 0.
  Each statement says that the stores the point makes, read back whole, are these terms of the loaded blocks.
-/
import proofs.«146234_j88244398064125_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every whole-buffer access of the body. -/
theorem off_zero : (![0, 0] : Fin 2 → Nat) = fun _ => 0 := by
  funext a; match a with | ⟨0, _⟩ => rfl | ⟨1, _⟩ => rfl

/-- First step of a contraction: the accumulator ends at the update of the zero block. -/
theorem scratch_first (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x1024 .f32) (x1 : Vec F S512x1024 .f32) (x2 : Vec F S512x1024 .f32) (x3 : Vec F S1x512 .f32) :
    sout0_A_0 c i arg3 harg3 arg4 harg4 arg5 harg5 arg6 harg6 arg7 harg7 arg8 harg8 hc0 hc1 x0 x1 x2 x3 = k0_pay2 x1 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) off_zero]
  simp only [View.readAt_eq_ld, harg3.read_unread, harg4.read_unread, harg5.read_unread,
    View.ld_unit_zero (S := S1024x1024) off_zero, View.ld_unit_zero (S := S512x1024) off_zero,
    View.readCov_unit_zero (S := S1024x512) _ off_zero]

/-- Middle step: the accumulator ends at the update of what the step before left. -/
theorem scratch_middle (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x1024 .f32) (x1 : Vec F S512x1024 .f32) (x2 : Vec F S512x1024 .f32) (x3 : Vec F S1x512 .f32) (xs0 : Vec F S1024x512 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x512) off_zero]
  simp only [View.readAt_eq_ld, harg3.read_unread, harg4.read_unread, harg5.read_unread, harg8.read_unread,
    View.ld_unit_zero (S := S1024x1024) off_zero, View.ld_unit_zero (S := S512x1024) off_zero,
    View.ld_unit_zero (S := S1024x512) off_zero]

/-- Last step: the accumulator ends at the update of what the step before left, -/
theorem scratch_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .f32) (x2 : Vec F S512x1024 .f32) (x3 : Vec F S1x512 .f32) (xs0 : Vec F S1024x512 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) off_zero]
  simp only [View.readAt_eq_ld, harg3.read_unread, harg4.read_unread, harg5.read_unread, harg8.read_unread,
    View.ld_unit_zero (S := S1024x1024) off_zero, View.ld_unit_zero (S := S512x1024) off_zero,
    View.ld_unit_zero (S := S1024x512) off_zero]

/-- and the output block is the epilogue (bias added, clamped below at zero) of that accumulator. -/
theorem out_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x1024 .f32) (x1 : Vec F S512x1024 .f32) (x2 : Vec F S512x1024 .f32) (x3 : Vec F S1x512 .f32) (xs0 : Vec F S1024x512 .f32) :
    out0_C_4 c i arg3 harg3 arg4 harg4 arg5 harg5 arg6 harg6 arg7 harg7 arg8 harg8 hc0 hc1 x0 x1 x2 x3 xs0 = k0_pay3 (k0_pay2 x1 x2 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x512) off_zero]
  simp only [View.readAt_eq_ld, harg3.read_unread, harg4.read_unread, harg5.read_unread, harg6.read_unread,
    harg8.read_unread, View.ld_unit_zero (S := S1024x1024) off_zero, View.ld_unit_zero (S := S512x1024) off_zero,
    View.ld_unit_zero (S := S1024x512) off_zero, View.ld_unit_zero (S := S1x512) off_zero,
    View.readCov_unit_zero (S := S1024x512) _ off_zero]

end Cert.KernelIdeal.Pieces

end
-- ==== Proof.Spec.lean ====
/-
  What both programs compute, over the extended reals.

  For g : [4096, 8192], W and mask : [2048, 8192], b : [2048], the result at row r and column p is

      max ( (∑ K < 8192, g[r, K] · (sp W[p, K] · mask[p, K])) + b[p] ) 0,

  where sp x = max x 0 + log1p (exp (-|x|)) is the softplus in the overflow-free form both programs spell
  (|x| being max x (-x) on the extended reals).  Both spellings guard the formula by a select on "x - 0 ≠ x - 0",
  a test for a not-a-number that no extended real passes, so the select always returns the formula; one spelling
  negates |x| and the other subtracts it from zero, which is the same extended real.

  The kernel adds the contraction up in 8 blocks of 1024 consecutive K; that the 8 block sums add up to the sum
  over all 8192 K needs only that addition of extended reals is commutative and associative
  (sum_blocks below): no finiteness of the inputs enters.
-/
import Idealize.ShloMosaic.PureOps.Ideal
import Idealize.ShloMosaic.PureOps.Ideal.Laws
import Idealize.ShloMosaic.Lib.ValueIdx

noncomputable section

namespace Cert.DenseSoftplus

open Idealize.ShloMosaic Idealize.ShloMosaic.ValueIdx

/-- The softplus, in the form max x 0 + log1p (exp (-|x|)), on the extended reals. -/
def sp (x : EReal) : EReal := max x 0 + Ideal.log1p (Ideal.exp (-(max x (-x))))

/-- Subtracting the extended real zero changes nothing. -/
theorem ereal_sub_zero (x : EReal) : x - 0 = x := by
  rw [sub_eq_add_neg, neg_zero, add_zero]

/-- The spelling that tests with the ordered "not equal" and subtracts |x| from zero is sp. -/
theorem sp_of_zero_sub (x : EReal) :
    Scalar.select (Ideal.cmp .one (x - 0) (x - 0)) (x + 0)
      (max x 0 + Ideal.log1p (Ideal.exp (0 - max (x - 0) (-(x - 0))))) = sp x := by
  have hc : Ideal.cmp .one (x - 0) (x - 0) = 0#1 := by simp [Ideal.cmp]
  rw [hc, ereal_sub_zero, zero_sub]
  rfl

/-- The spelling that tests with the unordered "not equal" and negates |x| is sp. -/
theorem sp_of_neg (x : EReal) :
    Scalar.select (Ideal.cmp .une (x - 0) (x - 0)) (x + 0)
      (max x 0 + Ideal.log1p (Ideal.exp (-(max (x - 0) (-(x - 0)))))) = sp x := by
  have hc : Ideal.cmp .une (x - 0) (x - 0) = 0#1 := by simp [Ideal.cmp]
  rw [hc, ereal_sub_zero]
  rfl

/-- One term of the contraction at row r, column p and contraction index K. -/
def term (g : FVec Ideal ⟨2, ![4096, 8192]⟩ .f32) (W mask : FVec Ideal ⟨2, ![2048, 8192]⟩ .f32)
    (r : Fin 4096) (p : Fin 2048) (K : Fin 8192) : EReal :=
  g (ix2 r K) * (sp (W (ix2 p K)) * mask (ix2 p K))

/-- The result at row r and column p. -/
def resultAt (g : FVec Ideal ⟨2, ![4096, 8192]⟩ .f32) (W mask : FVec Ideal ⟨2, ![2048, 8192]⟩ .f32)
    (b : FVec Ideal ⟨1, ![2048]⟩ .f32) (r : Fin 4096) (p : Fin 2048) : EReal :=
  max ((∑ K : Fin 8192, term g W mask r p K) + b (ix1 p)) 0

/-- The whole [4096, 2048] result. -/
def result (g : FVec Ideal ⟨2, ![4096, 8192]⟩ .f32) (W mask : FVec Ideal ⟨2, ![2048, 8192]⟩ .f32)
    (b : FVec Ideal ⟨1, ![2048]⟩ .f32) : FVec Ideal ⟨2, ![4096, 2048]⟩ .f32 :=
  fun i => resultAt g W mask b (i 0) (i 1)

/-- Eight block sums, block s being the sum over the 1024 consecutive indices from 1024·s, add up to the sum over
    all 8192 indices: a re-indexing of a finite sum in a commutative monoid. -/
theorem sum_blocks {β : Type*} [AddCommMonoid β] (T : Fin 8192 → β) (M : ℕ → β)
    (hM : ∀ (s : ℕ) (hs : s < 8), M s = ∑ q : Fin 1024, T ⟨1024 * s + q.val, by have := q.isLt; omega⟩) :
    ∑ s ∈ Finset.range 8, M s = ∑ K : Fin 8192, T K := by
  rw [Finset.sum_range]
  have e : ∀ s : Fin 8, M s.val = ∑ q : Fin 1024, T ⟨1024 * s.val + q.val, by have := q.isLt; have := s.isLt; omega⟩ :=
    fun s => hM s.val s.isLt
  simp only [e]
  rw [← Fintype.sum_prod_type']
  refine Fintype.sum_equiv (finProdFinEquiv (m := 8) (n := 1024)) _ _ ?_
  rintro ⟨s, q⟩
  refine congrArg T (Fin.ext ?_)
  show 1024 * s.val + q.val = q.val + 1024 * s.val
  omega

end Cert.DenseSoftplus

end
-- ==== Proof.BlockValue.lean ====
/-
  The body's arithmetic read at one entry, over the extended reals.

  With the casts to bf16 the identity and the matrix unit exact, the update of the [1024, 512] accumulator at
  row r and column p adds to it the sum over the 1024 contraction indices q of the block of g at (r, q) times the
  softplus of the block of W at (p, q) times the block of the mask at (p, q); the zero block is zero; and the
  epilogue at (r, p) is the accumulator plus the bias at p, clamped below at zero.
-/
import proofs.«146234_j88244398064125_1_alg».proof.Proof.Gen.KernelIdeal.Skeleton
import proofs.«146234_j88244398064125_1_alg».proof.Proof.Spec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.DenseSoftplus

/-! ## The matrix product's operand indices: rows from the output index, columns from the contraction index -/

theorem lhs_row (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_contr (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_row (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_contr (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The product of a [1024, 1024] block with the transpose of a [512, 1024] block, into zero, at (r, p): the sum
    over the 1024 shared columns q of left (r, q) times right (p, q). -/
theorem matmul_zero_apply (L : FVec Ideal S1024x1024 .bf16) (R : FVec Ideal S512x1024 .bf16) (r : Fin 1024) (p : Fin 512) :
    matmul dot_S1024x1024_S512x1024_S1024x512_1_1_0_0_n_n none L R (constant S1024x512 .f32 0x00000000#32) (ix2 r p)
      = ∑ q : Fin 1024, L (ix2 r q) * R (ix2 p q) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r p) ((contrEquiv1 dot_S1024x1024_S512x1024_S1024x512_1_1_0_0_n_n 1024 rfl rfl).symm k) = ix2 r k := funext fun a => Fin.ext (by
    match a with
    | ⟨0, _⟩ => exact lhs_row _ _
    | ⟨1, _⟩ => exact (lhs_contr _ _).trans hk)
  have er : dot_S1024x1024_S512x1024_S1024x512_1_1_0_0_n_n.rhsIdx (ix2 r p) ((contrEquiv1 dot_S1024x1024_S512x1024_S1024x512_1_1_0_0_n_n 1024 rfl rfl).symm k) = ix2 p k := funext fun a => Fin.ext (by
    match a with
    | ⟨0, _⟩ => exact rhs_row _ _
    | ⟨1, _⟩ => exact (rhs_contr _ _).trans hk)
  rw [el, er]

/-! ## The three payloads at an entry -/

/-- The block the accumulator is reset to is zero everywhere. -/
theorem zero_block (y : S1024x512.Idx) : k0_pay1 (F := Ideal) y = 0 := by
  unfold k0_pay1
  simp only [shapeCast_self]
  exact Ideal.ofBits_zero_f32

/-- The body's softplus of one entry is sp of it: the guard never fires, and zero minus |x| is the negation. -/
theorem softplus_elt (x : Ideal .f32) :
    Scalar.select (FloatOps.cmpf .one (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.log1p (FloatOps.exp (FloatOps.subf (FloatOps.ofBits .f32 0x00000000#32) (FloatOps.absf (FloatOps.subf x (FloatOps.ofBits .f32 0x00000000#32)))))))
      = sp x := by
  simp only [Ideal.cmpf_def, Ideal.absf_def, Ideal.subf_def, Ideal.addf_def, Ideal.maximumf_def, Ideal.log1p_def,
    Ideal.exp_def, Ideal.ofBits_def, Ideal.ofBits_zero_f32]
  exact sp_of_zero_sub x

/-- The accumulator's update at (r, p): what it held plus the block's share of the contraction. -/
theorem step_apply (w mk : Vec Ideal S512x1024 .f32) (gb : Vec Ideal S1024x1024 .f32) (acc : Vec Ideal S1024x512 .f32)
    (r : Fin 1024) (p : Fin 512) :
    k0_pay2 w mk gb acc (ix2 r p)
      = acc (ix2 r p) + ∑ q : Fin 1024, gb (ix2 r q) * (sp (w (ix2 p q)) * mk (ix2 p q)) := by
  unfold k0_pay2
  simp only [shapeCast_self]
  refine (congrArg (acc (ix2 r p) + ·) (matmul_zero_apply _ _ r p)).trans ?_
  refine congrArg (acc (ix2 r p) + ·) (Finset.sum_congr rfl fun q _ => ?_)
  refine congrArg (gb (ix2 r q) * ·) ?_
  refine congrArg (· * mk (ix2 p q)) ?_
  exact softplus_elt (w (ix2 p q))

/-- The epilogue at (r, p): the accumulator plus the bias block's entry p, clamped below at zero. -/
theorem epilogue_apply (acc : Vec Ideal S1024x512 .f32) (bb : Vec Ideal S1x512 .f32) (r : Fin 1024) (p : Fin 512) :
    k0_pay3 acc bb (ix2 r p) = max (acc (ix2 r p) + bb (ix2 (0 : Fin 1) p)) 0 := by
  unfold k0_pay3
  simp only [shapeCast_self]
  have hb : broadcastTo S1024x512 bb broadcasts_S1x512_S1024x512 (ix2 r p) = bb (ix2 (0 : Fin 1) p) :=
    broadcastTo_apply bb _ (ix2 r p) (ix2 (0 : Fin 1) p) (fun a => match a with
      | ⟨0, _⟩ => by show 0 = if (1 : Nat) = 1 then 0 else _; rw [if_pos rfl]
      | ⟨1, _⟩ => by show p.val = if (512 : Nat) = 1 then 0 else p.val; rw [if_neg (by decide)])
  show max (acc (ix2 r p) + broadcastTo S1024x512 bb broadcasts_S1x512_S1024x512 (ix2 r p)) (Ideal.ofBits .f32 0x00000000#32) = _
  rw [hb, Ideal.ofBits_zero_f32]

end Cert.KernelIdeal.BlockValue

end
-- ==== Proof.Accumulate.lean ====
/-
  The accumulator across one contraction.

  Points 8·u, 8·u + 1, …, 8·u + 7 share one block of the result (the contraction axis is the grid's fastest).  Each
  adds to the [1024, 512] accumulator its block's share of the contraction,
      share n (r, p) = ∑ q < 1024, g_blk n (r, q) · (sp (W_blk n (p, q)) · mask_blk n (p, q)),
  the first of them onto the zero block.  So after point t the accumulator holds, at every entry, zero plus the sum
  of the shares of the points 8·(t / 8), …, t; and the block the last point of the contraction writes out is that
  sum plus the bias, clamped below at zero.
-/
import proofs.«146234_j88244398064125_1_alg».proof.Proof.Gen.KernelIdeal.Value
import proofs.«146234_j88244398064125_1_alg».proof.Proof.Pieces
import proofs.«146234_j88244398064125_1_alg».proof.Proof.BlockValue

noncomputable section

namespace Cert.KernelIdeal.Accumulate

open Cert.KernelIdeal Cert.KernelIdeal.Gen Idealize.ShloMosaic Idealize.ShloMosaic.TcCoe Idealize.ShloMosaic.ValueIdx
  Idealize.SL.Sem Cert.DenseSoftplus

variable (m : (ℓ : Loc nD τ sig) → Buf (Elt Ideal) ℓ)

/-- The blocks point t is handed: of g, of W, of the mask and of the bias. -/
abbrev gblk (c : Dev nD) (t : Fin cfg0.N) : Vec Ideal S1024x1024 .f32 := iblk m c 0 t
abbrev wblk (c : Dev nD) (t : Fin cfg0.N) : Vec Ideal S512x1024 .f32 := iblk m c 1 t
abbrev mblk (c : Dev nD) (t : Fin cfg0.N) : Vec Ideal S512x1024 .f32 := iblk m c 2 t
abbrev bblk (c : Dev nD) (t : Fin cfg0.N) : Vec Ideal S1x512 .f32 := iblk m c 3 t

/-- What point n adds to the accumulator at row r and column p of its block (zero past the grid, where it is
    never used). -/
def shareAt (c : Dev nD) (n : ℕ) (r : Fin 1024) (p : Fin 512) : EReal :=
  if h : n < cfg0.N then
    ∑ q : Fin 1024, gblk m c ⟨n, h⟩ (ix2 r q) * (sp (wblk m c ⟨n, h⟩ (ix2 p q)) * mblk m c ⟨n, h⟩ (ix2 p q))
  else 0

/-- The same as a function of the block's index. -/
def share (c : Dev nD) (n : ℕ) (y : S1024x512.Idx) : EReal := shareAt m c n (y 0) (y 1)

/-- The first point of a contraction leaves zero plus its share. -/
theorem first_step (c : Dev nD) (n : ℕ) (h : n < cfg0.N) (h0 : n % 8 = 0) (y : S1024x512.Idx) :
    Value.scAt0_0 m c n h (VS0_0.read (Elt Ideal) VS0_0.junk) y = 0 + share m c n y := by
  have hN : n < 128 := lt_of_lt_of_eq h (show cfg0.N = 128 from N_0)
  have h1 : ¬ n % 8 = 7 := by omega
  unfold Value.scAt0_0
  rw [dif_pos h0, dif_neg h1]
  obtain ⟨r, p, rfl⟩ : ∃ (r : Fin 1024) (p : Fin 512), y = ix2 r p := ⟨y 0, y 1, eq_ix2 y⟩
  refine (congrFun (Pieces.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) (ix2 r p)).trans ?_
  refine (BlockValue.step_apply _ _ _ _ r p).trans ?_
  rw [BlockValue.zero_block]
  unfold share shareAt
  rw [dif_pos h]

/-- Every later point of the contraction leaves what the point before left plus its share. -/
theorem later_step (c : Dev nD) (n : ℕ) (h : n < cfg0.N) (h0 : ¬ n % 8 = 0) (acc : Vec Ideal S1024x512 .f32)
    (y : S1024x512.Idx) :
    Value.scAt0_0 m c n h acc y = acc y + share m c n y := by
  unfold Value.scAt0_0
  rw [dif_neg h0]
  obtain ⟨r, p, rfl⟩ : ∃ (r : Fin 1024) (p : Fin 512), y = ix2 r p := ⟨y 0, y 1, eq_ix2 y⟩
  by_cases h1 : n % 8 = 7
  · rw [dif_pos h1]
    refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 r p)).trans ?_
    refine (BlockValue.step_apply _ _ _ _ r p).trans ?_
    unfold share shareAt
    rw [dif_pos h]
  · rw [dif_neg h1]
    refine (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 r p)).trans ?_
    refine (BlockValue.step_apply _ _ _ _ r p).trans ?_
    unfold share shareAt
    rw [dif_pos h]

/-- After point t the accumulator holds zero plus the shares of the points of t's contraction up to t. -/
theorem scratch_after (c : Dev nD) (t : Fin cfg0.N) (y : S1024x512.Idx) :
    (outsAt0 m c t.val t.isLt).2 y
      = 0 + ∑ s ∈ Finset.range (t.val % 8 + 1), share m c (8 * (t.val / 8) + s) y := by
  have hN : t.val < 128 := lt_of_lt_of_eq t.isLt (show cfg0.N = 128 from N_0)
  refine (congrFun (Value.soutsAt0_0_eq m c t) y).trans ?_
  exact Pipeline.accAt_add_apply (ι := S1024x512.Idx) (β := EReal)
    (fun n h => Value.scAt0_0 m c n h (VS0_0.read (Elt Ideal) VS0_0.junk)) (Value.scAt0_0 m c)
    (fun _ => 0) (share m c) (8 * (t.val / 8)) 7
    (fun h i => first_step m c _ h (by omega) i)
    (fun n h acc i hlo hhi => later_step m c n h (by omega) acc i)
    (t.val % 8) (by omega) _ y

/-- The block a contraction's last point hands to the write-back: the accumulator it leaves plus the bias block's
    entry, clamped below at zero. -/
theorem out_at_last (c : Dev nD) (t : Fin cfg0.N) (h1 : t.val % 8 = 7) (r : Fin 1024) (p : Fin 512) :
    (outsAt0 m c t.val t.isLt).1 (ix2 r p)
      = max ((outsAt0 m c t.val t.isLt).2 (ix2 r p) + bblk m c t (ix2 (0 : Fin 1) p)) 0 := by
  have h0 : ¬ t.val % 8 = 0 := by omega
  rw [outsAt0_C m c t h0 h1]
  dsimp only
  rw [Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2]
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) (ix2 r p)).trans ?_
  exact BlockValue.epilogue_apply _ _ r p

end Cert.KernelIdeal.Accumulate

end
-- ==== Proof.BlockReads.lean ====
/-
  Which entries of the arguments a grid point sees.

  The grid has 4 · 4 · 8 = 128 points; point t = 32·i + 8·j + k works on row block i (1024 rows of g and of the
  result), column block j (512 rows of W and of the mask, 512 entries of the bias, 512 columns of the result) and
  contraction block k (1024 columns of g, W and the mask).  So i = t / 32, j = t / 8 % 4 and k = t % 8, and an
  entry of a point's block is the entry of the whole array at block offset plus the entry's position in the block.
  The bias reaches the kernel reshaped from [2048] to [1, 2048], which moves no entry.
-/
import proofs.«146234_j88244398064125_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.BlockReads

open Cert.KernelIdeal Cert.KernelIdeal.Gen Idealize.ShloMosaic Idealize.ShloMosaic.TcCoe Idealize.ShloMosaic.ValueIdx
  Idealize.SL.Sem Idealize.ShloMosaic.StableHlo

variable {F : FTy → Type} [FloatOps F]
variable (m : (ℓ : Loc nD τ sig) → Buf (Elt F) ℓ)

/-- Block indices of g's window at point t: row block t / 32, contraction block t % 8. -/
theorem idx_g : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
/-- Of W's window: column block t / 8 % 4, contraction block t % 8. -/
theorem idx_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
/-- Of the mask's window: the same as W's. -/
theorem idx_mask : ∀ t : Fin cfg0.N, win0_2.index t 0 = t.val / 8 % 4 ∧ win0_2.index t 1 = t.val % 8 :=
  (by decide +kernel : ∀ t : Fin grid0.N, win0_2.index t 0 = t.val / 8 % 4 ∧ win0_2.index t 1 = t.val % 8)
/-- Of the bias's window: the one row, column block t / 8 % 4. -/
theorem idx_b : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)
/-- Of the result's window: row block t / 32, column block t / 8 % 4. -/
theorem idx_o : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-- Entry (r, q) of g's block at point t is g at row 1024·(t / 32) + r and column 1024·(t % 8) + q. -/
theorem g_block (c : Dev nD) (t : Fin cfg0.N) (r q : Fin 1024) (R : Fin 4096) (K : Fin 8192)
    (hR : R.val = 1024 * (t.val / 32) + r.val) (hK : K.val = 1024 * (t.val % 8) + q.val) :
    (iblk m c 0 t : Vec F S1024x1024 .f32) (ix2 r q)
      = (m ((c : Thread nD τ).loc main_arg0) : Vec F S4096x8192 .f32) (ix2 R K) := by
  unfold iblk
  rw [View.read_apply]
  show V m c main_arg0 _ = _
  rw [V_main_arg0]
  refine congrArg _ (funext fun a => Fin.ext ?_)
  match a with
  | ⟨0, _⟩ => show win0_0.index t 0 * 1024 + 1 * r.val = R.val; rw [(idx_g t).1, hR]; omega
  | ⟨1, _⟩ => show win0_0.index t 1 * 1024 + 1 * q.val = K.val; rw [(idx_g t).2, hK]; omega

/-- Entry (p, q) of W's block at point t is W at row 512·(t / 8 % 4) + p and column 1024·(t % 8) + q. -/
theorem w_block (c : Dev nD) (t : Fin cfg0.N) (p : Fin 512) (q : Fin 1024) (P : Fin 2048) (K : Fin 8192)
    (hP : P.val = 512 * (t.val / 8 % 4) + p.val) (hK : K.val = 1024 * (t.val % 8) + q.val) :
    (iblk m c 1 t : Vec F S512x1024 .f32) (ix2 p q)
      = (m ((c : Thread nD τ).loc main_arg1) : Vec F S2048x8192 .f32) (ix2 P K) := by
  unfold iblk
  rw [View.read_apply]
  show V m c main_arg1 _ = _
  rw [V_main_arg1]
  refine congrArg _ (funext fun a => Fin.ext ?_)
  match a with
  | ⟨0, _⟩ => show win0_1.index t 0 * 512 + 1 * p.val = P.val; rw [(idx_w t).1, hP]; omega
  | ⟨1, _⟩ => show win0_1.index t 1 * 1024 + 1 * q.val = K.val; rw [(idx_w t).2, hK]; omega

/-- The mask's block likewise. -/
theorem mask_block (c : Dev nD) (t : Fin cfg0.N) (p : Fin 512) (q : Fin 1024) (P : Fin 2048) (K : Fin 8192)
    (hP : P.val = 512 * (t.val / 8 % 4) + p.val) (hK : K.val = 1024 * (t.val % 8) + q.val) :
    (iblk m c 2 t : Vec F S512x1024 .f32) (ix2 p q)
      = (m ((c : Thread nD τ).loc main_arg3) : Vec F S2048x8192 .f32) (ix2 P K) := by
  unfold iblk
  rw [View.read_apply]
  show V m c main_arg3 _ = _
  rw [V_main_arg3]
  refine congrArg _ (funext fun a => Fin.ext ?_)
  match a with
  | ⟨0, _⟩ => show win0_2.index t 0 * 512 + 1 * p.val = P.val; rw [(idx_mask t).1, hP]; omega
  | ⟨1, _⟩ => show win0_2.index t 1 * 1024 + 1 * q.val = K.val; rw [(idx_mask t).2, hK]; omega

/-- The [1, 2048] array the kernel's bias window stages is the bias, entry for entry. -/
theorem bias_row (c : Dev nD) :
    (V m c main_v0 : S1x2048.Idx → Elt F .f32)
      = shapeCast S1x2048 (m ((c : Thread nD τ).loc main_arg2) : Vec F S2048 .f32) shapeCasts_S2048_S1x2048 := by
  dsimp only [V, hostOps0]
  after_results
  rfl

/-- Entry p of the bias block at point t is the bias at 512·(t / 8 % 4) + p. -/
theorem b_block (c : Dev nD) (t : Fin cfg0.N) (p : Fin 512) (P : Fin 2048)
    (hP : P.val = 512 * (t.val / 8 % 4) + p.val) :
    (iblk m c 3 t : Vec F S1x512 .f32) (ix2 (0 : Fin 1) p)
      = (m ((c : Thread nD τ).loc main_arg2) : Vec F S2048 .f32) (ix1 P) := by
  unfold iblk
  rw [View.read_apply]
  show V m c main_v0 _ = _
  rw [bias_row]
  refine shapeCast_apply _ _ _ (ix1 P) ?_
  rw [Shape.rowMajor_val_one, Shape.rowMajor_val_two]
  show P.val = (win0_3.index t 0 * 1 + 1 * 0) * 2048 + (win0_3.index t 1 * 512 + 1 * p.val)
  rw [(idx_b t).1, (idx_b t).2, hP]
  omega

end Cert.KernelIdeal.BlockReads

end
-- ==== Proof.KernelResult.lean ====
/-
  The kernel's result array is the result function of its arguments.

  The block a contraction's last point writes out holds, at (r, p), the eight shares of its contraction summed,
  plus the bias, clamped below at zero.  Share s is the sum over the 1024 contraction indices of block s, so the
  eight together are the sum over all 8192 (Spec's sum_blocks): the entry is the result function at row
  1024·i + r and column 512·j + p, the block's place in the array.  The 16 written blocks tile the
  [4096, 2048] array, so the whole array is the result function.
-/
import proofs.«146234_j88244398064125_1_alg».proof.Proof.Accumulate
import proofs.«146234_j88244398064125_1_alg».proof.Proof.BlockReads

noncomputable section

namespace Cert.KernelIdeal.RefValue

open Cert.KernelIdeal Cert.KernelIdeal.Gen Idealize.ShloMosaic Idealize.ShloMosaic.TcCoe Idealize.ShloMosaic.ValueIdx
  Idealize.SL.Sem Cert.DenseSoftplus
open Idealize.ShloMosaic.Pipeline (Dat)

variable (m : (ℓ : Loc nD τ sig) → Buf (Elt Ideal) ℓ) (ρ : Dev nD → PrngReg)

/-- The result function of the argument arrays as launched. -/
abbrev resultOf (c : Dev nD) : Buf (Elt Ideal) ((c : Thread nD τ).loc main_v1) :=
  result (m ((c : Thread nD τ).loc main_arg0)) (m ((c : Thread nD τ).loc main_arg1)) (m ((c : Thread nD τ).loc main_arg3)) (m ((c : Thread nD τ).loc main_arg2))

/-- Entry (r, p) of the block written out by the last point t of a contraction is the result at the entry's row
    and column in the whole array. -/
theorem block_value (c : Dev nD) (t : Fin cfg0.N) (h1 : t.val % 8 = 7) (r : Fin 1024) (p : Fin 512)
    (R : Fin 4096) (P : Fin 2048) (hR : R.val = 1024 * (t.val / 32) + r.val) (hP : P.val = 512 * (t.val / 8 % 4) + p.val) :
    (outsAt0 m c t.val t.isLt).1 (ix2 r p) = resultAt (m ((c : Thread nD τ).loc main_arg0)) (m ((c : Thread nD τ).loc main_arg1)) (m ((c : Thread nD τ).loc main_arg3)) (m ((c : Thread nD τ).loc main_arg2)) R P := by
  have hN : t.val < 128 := lt_of_lt_of_eq t.isLt (show cfg0.N = 128 from N_0)
  have hM : ∀ (s : ℕ) (hs : s < 8), Accumulate.share m c (8 * (t.val / 8) + s) (ix2 r p)
      = ∑ q : Fin 1024, term (m ((c : Thread nD τ).loc main_arg0)) (m ((c : Thread nD τ).loc main_arg1)) (m ((c : Thread nD τ).loc main_arg3)) R P
          ⟨1024 * s + q.val, by have := q.isLt; omega⟩ := by
    intro s hs
    have hn : 8 * (t.val / 8) + s < cfg0.N := lt_of_lt_of_eq (by omega : 8 * (t.val / 8) + s < 128) (show (128 : ℕ) = cfg0.N from N_0.symm)
    unfold Accumulate.share Accumulate.shareAt
    rw [dif_pos hn]
    refine Finset.sum_congr rfl fun q _ => ?_
    unfold term
    have hq := q.isLt
    refine congrArg₂ (· * ·) (BlockReads.g_block m c ⟨_, hn⟩ r q R ⟨1024 * s + q.val, by omega⟩
      (by show R.val = 1024 * ((8 * (t.val / 8) + s) / 32) + r.val; omega)
      (by show 1024 * s + q.val = 1024 * ((8 * (t.val / 8) + s) % 8) + q.val; omega)) ?_
    refine congrArg₂ (· * ·) (congrArg sp (BlockReads.w_block m c ⟨_, hn⟩ p q P ⟨1024 * s + q.val, by omega⟩
      (by show P.val = 512 * ((8 * (t.val / 8) + s) / 8 % 4) + p.val; omega)
      (by show 1024 * s + q.val = 1024 * ((8 * (t.val / 8) + s) % 8) + q.val; omega)))
      (BlockReads.mask_block m c ⟨_, hn⟩ p q P ⟨1024 * s + q.val, by omega⟩
      (by show P.val = 512 * ((8 * (t.val / 8) + s) / 8 % 4) + p.val; omega)
      (by show 1024 * s + q.val = 1024 * ((8 * (t.val / 8) + s) % 8) + q.val; omega))
  have hsum := sum_blocks (term (m ((c : Thread nD τ).loc main_arg0)) (m ((c : Thread nD τ).loc main_arg1)) (m ((c : Thread nD τ).loc main_arg3)) R P)
    (fun s => Accumulate.share m c (8 * (t.val / 8) + s) (ix2 r p)) hM
  rw [Accumulate.out_at_last m c t h1 r p, Accumulate.scratch_after m c t (ix2 r p), zero_add]
  unfold resultAt
  refine congrArg₂ (fun a b => max (a + b) 0) ?_ (BlockReads.b_block m c t p P hP)
  rw [h1]
  exact hsum

/-- So that block, as a function of the position in the block. -/
theorem out_block_eq (c : Dev nD) (t : Fin cfg0.N) (h1 : t.val % 8 = 7) :
    (outsAt0 m c t.val t.isLt).1 = fun y : S1024x512.Idx =>
      resultAt (m ((c : Thread nD τ).loc main_arg0)) (m ((c : Thread nD τ).loc main_arg1)) (m ((c : Thread nD τ).loc main_arg3)) (m ((c : Thread nD τ).loc main_arg2))
        ⟨1024 * (t.val / 32) + (y 0).val, by
          have hN : t.val < 128 := lt_of_lt_of_eq t.isLt (show cfg0.N = 128 from N_0)
          have := (y 0).isLt
          show 1024 * (t.val / 32) + (y 0).val < 4096
          have h : (y 0).val < 1024 := (y 0).isLt
          omega⟩
        ⟨512 * (t.val / 8 % 4) + (y 1).val, by
          show 512 * (t.val / 8 % 4) + (y 1).val < 2048
          have h : (y 1).val < 512 := (y 1).isLt
          omega⟩ := by
  funext y
  obtain ⟨r, p, rfl⟩ : ∃ (r : Fin 1024) (p : Fin 512), y = ix2 r p := ⟨y 0, y 1, eq_ix2 y⟩
  exact block_value m c t h1 r p _ _ rfl rfl

/-- What a contraction's last point writes back is its block of the result function. -/
theorem flushed_eq (c : Dev nD) (t : Fin cfg0.N) (hf : (cfg0.win 4).flush t = true) :
    (dats m 0 c).flushed 4 t = ((cfg0.win 4).blk t).view.read (Elt Ideal) (resultOf m c) := by
  have h1 : t.val % 8 = 7 := (flush0_4 t).mp hf
  rw [Value.flushed4, out_block_eq m c t h1]
  funext y
  rw [View.read_apply]
  show resultAt (m ((c : Thread nD τ).loc main_arg0)) (m ((c : Thread nD τ).loc main_arg1)) (m ((c : Thread nD τ).loc main_arg3)) (m ((c : Thread nD τ).loc main_arg2)) ⟨1024 * (t.val / 32) + (y 0).val, _⟩ ⟨512 * (t.val / 8 % 4) + (y 1).val, _⟩
    = resultAt (m ((c : Thread nD τ).loc main_arg0)) (m ((c : Thread nD τ).loc main_arg1)) (m ((c : Thread nD τ).loc main_arg3)) (m ((c : Thread nD τ).loc main_arg2)) ((((cfg0.win 4).blk t).view.emb y) 0) ((((cfg0.win 4).blk t).view.emb y) 1)
  refine congrArg₂ (resultAt (m ((c : Thread nD τ).loc main_arg0)) (m ((c : Thread nD τ).loc main_arg1)) (m ((c : Thread nD τ).loc main_arg3)) (m ((c : Thread nD τ).loc main_arg2))) (Fin.ext ?_) (Fin.ext ?_)
  · show 1024 * (t.val / 32) + (y 0).val = win0_4.index t 0 * 1024 + 1 * (y 0).val
    rw [(BlockReads.idx_o t).1]; omega
  · show 512 * (t.val / 8 % 4) + (y 1).val = win0_4.index t 1 * 512 + 1 * (y 1).val
    rw [(BlockReads.idx_o t).2]; omega

/-- An index of the array lies in point t's block iff each coordinate lies in the block's range on its axis. -/
theorem mem_block (t : Fin cfg0.N) (i : S4096x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v1).slice (win0_4.rect t)).set ↔ _
  rw [View.set_slice_whole, Rect.mem_set_unit]
  exact Iff.rfl

/-- Every index of the result array lies in the block of the last point of its row and column blocks'
    contraction: point 32·(row / 1024) + 8·(column / 512) + 7. -/
theorem cover (i : S4096x2048.Idx) :
    ∃ t : Fin cfg0.N, (cfg0.win 4).flush t = true ∧ i ∈ ((cfg0.win 4).blk t).view.set := by
  have h0 : (i 0).val < 4096 := (i 0).isLt
  have h1 : (i 1).val < 2048 := (i 1).isLt
  have hN : cfg0.N = 128 := N_0
  obtain ⟨t, ht⟩ : ∃ t : Fin cfg0.N, t.val = 32 * ((i 0).val / 1024) + 8 * ((i 1).val / 512) + 7 :=
    ⟨⟨32 * ((i 0).val / 1024) + 8 * ((i 1).val / 512) + 7, by rw [hN]; omega⟩, rfl⟩
  refine ⟨t, (flush0_4 t).mpr (by omega), ?_⟩
  rw [mem_block]
  intro a
  match a with
  | ⟨0, _⟩ =>
    show win0_4.index t 0 * 1024 ≤ (i 0).val ∧ (i 0).val < win0_4.index t 0 * 1024 + 1024
    rw [(BlockReads.idx_o t).1]; omega
  | ⟨1, _⟩ =>
    show win0_4.index t 1 * 512 ≤ (i 1).val ∧ (i 1).val < win0_4.index t 1 * 512 + 512
    rw [(BlockReads.idx_o t).2]; omega

/-- The result array after the run is the result function of the arguments. -/
theorem final (c : Dev nD) : (dats m 0 c).arrAt 4 cfg0.N = resultOf m c :=
  (dats m 0 c).arrAt_eq_of_cover 4 (resultOf m c) (flushed_eq m c) cover

/-- Every weakly fair execution of the idealized kernel ends with the result array at the result function of the
    arguments and the arguments unchanged. -/
theorem run : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RefValue

end
-- ==== Proof.Reference.lean ====
/-
  The reference computes the result function.

  Its softplus call is, entry by entry, sp (the guard on "x - 0 ≠ x - 0" never fires on an extended real); its
  einsum at (r, p) is the sum over the 8192 contraction indices K of g (r, K) times the masked softplus weight at
  (p, K); the bias is broadcast along the rows; and the final relu is the maximum with zero.
-/
import proofs.«146234_j88244398064125_1_alg».proof.Proof.Gen.ReferenceIdeal.Read
import proofs.«146234_j88244398064125_1_alg».proof.Proof.Spec

noncomputable section

namespace Cert.ReferenceIdeal.RefValue

open Cert.ReferenceIdeal Cert.ReferenceIdeal.Read Idealize.ShloMosaic Idealize.ShloMosaic.ValueIdx Cert.DenseSoftplus

/-- The softplus call at an entry is sp of the entry. -/
theorem softplus_at (x1 : (⟨S2048x8192, .f32⟩ : BufTy).Contents (Elt Ideal)) (j : S2048x8192.Idx) :
    val_main_v0 (F := Ideal) x1 j = sp (x1 j) := by
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, Ideal.cmpf_def, Ideal.absf_def, Ideal.hostAbsf_def,
    Ideal.hostNegf_def, Ideal.negf_def, Ideal.hostUnary_exp_def, Ideal.hostUnary_log1p_def, Ideal.subf_def,
    Ideal.addf_def, Ideal.maximumf_def, Ideal.ofBits_def, Ideal.ofBits_zero_f32]
  exact sp_of_neg (x1 j)

/-- The reference's result at row r and column p is the result function there (the arguments in the order
    g, W, mask, bias). -/
theorem reference_at (x0 : (⟨S4096x8192, .f32⟩ : BufTy).Contents (Elt Ideal)) (x1 : (⟨S2048x8192, .f32⟩ : BufTy).Contents (Elt Ideal)) (x2 : (⟨S2048, .f32⟩ : BufTy).Contents (Elt Ideal))
    (x3 : (⟨S2048x8192, .f32⟩ : BufTy).Contents (Elt Ideal)) (r : Fin 4096) (p : Fin 2048) :
    val_main_v6 (F := Ideal) x0 x1 x2 x3 (ix2 r p) = resultAt x0 x1 x3 x2 r p := by
  have el : ∀ k : Fin 8192, lidx_main_v2 (ix2 r p) k = ix2 r k := fun k => funext fun a => Fin.ext (by
    match a with
    | ⟨0, _⟩ => rfl
    | ⟨1, _⟩ => rfl)
  have er : ∀ k : Fin 8192, ridx_main_v2 (ix2 r p) k = ix2 p k := fun k => funext fun a => Fin.ext (by
    match a with
    | ⟨0, _⟩ => rfl
    | ⟨1, _⟩ => rfl)
  have eb : idx_main_v3 (idx_main_v4 (ix2 r p)) = ix1 p := funext fun a => Fin.ext (by
    match a with
    | ⟨0, _⟩ => rfl)
  rw [val_main_v6_apply, val_main_v5_apply, val_main_v2_apply, val_main_v4_apply, val_main_v3_apply,
    val_main_call1_v0_apply, val_main_call1_cst_apply, eb]
  show max ((∑ k : Fin 8192, x0 (lidx_main_v2 (ix2 r p) k) * val_main_v1 (F := Ideal) x1 x3 (ridx_main_v2 (ix2 r p) k))
    + x2 (ix1 p)) (Ideal.ofBits .f32 0x00000000#32) = _
  rw [Ideal.ofBits_zero_f32]
  unfold resultAt
  refine congrArg (fun s => max (s + x2 (ix1 p)) 0) (Finset.sum_congr rfl fun k _ => ?_)
  rw [el, er, val_main_v1_apply, softplus_at]
  rfl

/-- So the reference's whole result is the result function of its arguments. -/
theorem reference_is_result (x0 : (⟨S4096x8192, .f32⟩ : BufTy).Contents (Elt Ideal)) (x1 : (⟨S2048x8192, .f32⟩ : BufTy).Contents (Elt Ideal)) (x2 : (⟨S2048, .f32⟩ : BufTy).Contents (Elt Ideal))
    (x3 : (⟨S2048x8192, .f32⟩ : BufTy).Contents (Elt Ideal)) :
    val_main_v6 (F := Ideal) x0 x1 x2 x3 = result x0 x1 x3 x2 := by
  funext i
  obtain ⟨r, p, rfl⟩ : ∃ (r : Fin 4096) (p : Fin 2048), i = ix2 r p := ⟨i 0, i 1, eq_ix2 i⟩
  exact reference_at x0 x1 x2 x3 r p

end Cert.ReferenceIdeal.RefValue

end
-- ==== Proof.lean ====
/-
  The masked-softplus dense layer: relu (g · (softplus W ⊙ mask)ᵀ + b), a tiled kernel against its one-line reference.

  Over the extended reals both programs compute, at row r and column p,
      max ((∑ K < 8192, g[r, K] · (sp W[p, K] · mask[p, K])) + b[p]) 0
  (Proof/Spec.lean).  The reference does so in one contraction (Proof/Reference.lean).  The kernel walks a
  4 × 4 × 8 grid: for each of the 16 blocks of the result it zeroes a [1024, 512] accumulator, adds to it the
  shares of the eight blocks of 1024 contraction indices (the casts to bf16 are the identity and the matrix unit is
  exact over the extended reals), then adds the bias, clamps at zero and writes the block out (Proof/Pieces.lean,
  BlockValue.lean, BlockReads.lean, Accumulate.lean, KernelResult.lean).  Eight block sums are the whole sum
  because addition of extended reals is commutative and associative; the inputs' finiteness is never used.

  The three programs terminate without fault and leave their arguments as they were: for the two kernels that is
  the generated frame; for the reference, its generated run.  The idealization rewrote no operation, so there is
  nothing to preserve.
-/
import proofs.«146234_j88244398064125_1_alg».proof.Defs
import proofs.«146234_j88244398064125_1_alg».proof.Proof.Gen.Kernel
import proofs.«146234_j88244398064125_1_alg».proof.Proof.Gen.Kernel.Skeleton
import proofs.«146234_j88244398064125_1_alg».proof.Proof.Gen.Kernel.Launch
import proofs.«146234_j88244398064125_1_alg».proof.Proof.Gen.Kernel.Points
import proofs.«146234_j88244398064125_1_alg».proof.Proof.Gen.Kernel.Frame
import proofs.«146234_j88244398064125_1_alg».proof.Proof.Gen.KernelIdeal
import proofs.«146234_j88244398064125_1_alg».proof.Proof.Gen.KernelIdeal.Skeleton
import proofs.«146234_j88244398064125_1_alg».proof.Proof.Gen.KernelIdeal.Launch
import proofs.«146234_j88244398064125_1_alg».proof.Proof.Gen.KernelIdeal.Points
import proofs.«146234_j88244398064125_1_alg».proof.Proof.Gen.KernelIdeal.Frame
import proofs.«146234_j88244398064125_1_alg».proof.Proof.Gen.ReferenceIdeal
import proofs.«146234_j88244398064125_1_alg».proof.Proof.Gen.KernelIdeal.Value
import proofs.«146234_j88244398064125_1_alg».proof.Proof.Gen.ReferenceIdeal.Run
import proofs.«146234_j88244398064125_1_alg».proof.Proof.Gen.ReferenceIdeal.Read
import proofs.«146234_j88244398064125_1_alg».proof.Proof.Gen.Pre_finite_inputs
import proofs.«146234_j88244398064125_1_alg».proof.Proof.KernelResult
import proofs.«146234_j88244398064125_1_alg».proof.Proof.Reference
import Idealize.ShloMosaic.Adequacy
import Idealize.ShloMosaic.Init

noncomputable section

namespace Cert.Proof

open Idealize.ShloMosaic Idealize.SL.Sem

/-- The kernel as printed runs to the end without fault and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are the same result function. -/
theorem algebraic : Cert.algebraic_KernelIdeal_ReferenceIdeal := by
  intro m ρ m' ρ' _ hagree
  refine ⟨fun c => Cert.KernelIdeal.RefValue.resultOf m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_is_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
